-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S524288x128 : Shape := ⟨2, ![524288, 128]⟩
abbrev S8192x128 : Shape := ⟨2, ![8192, 128]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S524288x128, .f32⟩
  | .hbm, ⟨3, _⟩ => ⟨S524288x128, .f32⟩
  | .hbm, ⟨4, _⟩ => ⟨S4x4096x4096, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S524288x128 : S4x4096x4096.ShapeCasts S524288x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S524288x128_S4x4096x4096 : S524288x128.ShapeCasts S4x4096x4096
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x128 : Shape := ⟨2, ![128, 128]⟩
abbrev S4x4096x32x128 : Shape := ⟨4, ![4, 4096, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S4x4096x32x128, .f32⟩
  | .hbm, ⟨3, _⟩ => ⟨S4x4096x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  shapeCasts_S4x4096x32x128_S4x4096x4096 : S4x4096x32x128.ShapeCasts S4x4096x4096
  dot_S4x4096x32x128_S128x128_S4x4096x32x128_3_0_012_1_n_n_wf : DotDims.WF S4x4096x32x128 S128x128 S4x4096x32x128 [3] [0] [0, 1, 2] [1] [] []

variable [Facts₀]

def dot_S4x4096x32x128_S128x128_S4x4096x32x128_3_0_012_1_n_n : DotDims S4x4096x32x128 S128x128 S4x4096x32x128 where
  lhsContracting := [3]
  rhsContracting := [0]
  lhsNonContracting := [0, 1, 2]
  rhsNonContracting := [1]
  lhsBatch := []
  rhsBatch := []
  wf := dot_S4x4096x32x128_S128x128_S4x4096x32x128_3_0_012_1_n_n_wf

class Facts : Prop extends Facts₀ where

variable [Facts]
-- ==== Proof.Spec.lean ====
/-
  THE MATHEMATICS of the block transform, with no program in sight.

  The input `x` has shape [4, 4096, 4096]; its last axis is cut into 32 consecutive chunks of 128 entries, and each
  chunk, a row vector, is multiplied on the right by the fixed 128 × 128 matrix `H`:

      out[a, b, d] = ∑ k < 128,  x[a, b, (d / 128) · 128 + k] · H[k, d % 128].

  `blockTransform` is that formula over the extended reals. Both programs reach it by flattening: one flattens `x` to a
  tall [524288, 128] matrix (every chunk a row), multiplies the whole matrix by `H`, and folds the product back; the other
  splits the last axis into [32, 128], contracts the last of the four axes with `H`, and folds back. A row-major reshape
  keeps an entry's flat position, so the chunk (a, b, d / 128) is row (a · 4096 + b) · 32 + d / 128 of the tall matrix and
  the entry's place inside its chunk is the column: `reshape_rowsTimes_reshape` below is the tall-matrix reading; the
  four-axis reading is proved where the reference's stages are at hand. No law beyond re-indexing is used (the sums run
  over the same 128 products in the same order), so nothing here needs the entries to be finite.
-/
import Idealize.ShloMosaic.PureOps.Ideal
import Idealize.ShloMosaic.Lib.ValueIdx
import Idealize.ShloMosaic.Lib.Pipeline.Value

noncomputable section

open scoped BigOperators
open Idealize.ShloMosaic

namespace Cert.BlockTransform

/-- The input's and the result's shape. -/
abbrev SX : Shape := ⟨3, ![4, 4096, 4096]⟩
/-- The matrix's shape. -/
abbrev SH : Shape := ⟨2, ![128, 128]⟩
/-- The tall matrix: one row per chunk of 128 consecutive entries of the last axis. -/
abbrev SM : Shape := ⟨2, ![524288, 128]⟩

/-- Entry `k` of the chunk that holds position `i` of the input. -/
abbrev chunkAt (i : SX.Idx) (k : Fin 128) : SX.Idx := fun a => match a with
  | ⟨0, _⟩ => ⟨(i 0).val, (i 0).isLt⟩
  | ⟨1, _⟩ => ⟨(i 1).val, (i 1).isLt⟩
  | ⟨2, _⟩ => ⟨(i 2).val / 128 * 128 + k.val, by have h2 : (i 2).val < 4096 := (i 2).isLt; have hk : k.val < 128 := k.isLt; show (i 2).val / 128 * 128 + k.val < 4096; omega⟩

/-- The matrix entry that meets it: row `k`, the column the place of `i` inside its chunk. -/
abbrev coeffAt (i : SX.Idx) (k : Fin 128) : SH.Idx := fun a => match a with
  | ⟨0, _⟩ => ⟨k.val, k.isLt⟩
  | ⟨1, _⟩ => ⟨(i 2).val % 128, by show (i 2).val % 128 < 128; omega⟩

/-- THE RESULT: every chunk of 128 consecutive entries of the last axis, as a row vector, times `H`. -/
def blockTransform (x : SX.Idx → EReal) (H : SH.Idx → EReal) : SX.Idx → EReal :=
  fun i => ∑ k : Fin 128, x (chunkAt i k) * H (coeffAt i k)

/-! ## The tall-matrix reading -/

/-- Row `j 0` of the tall matrix at column `k`. -/
abbrev rowAt (j : SM.Idx) (k : Fin 128) : SM.Idx := fun a => match a with
  | ⟨0, _⟩ => ⟨(j 0).val, (j 0).isLt⟩
  | ⟨1, _⟩ => ⟨k.val, k.isLt⟩

/-- Column `j 1` of `H` at row `k`. -/
abbrev colAt (j : SM.Idx) (k : Fin 128) : SH.Idx := fun a => match a with
  | ⟨0, _⟩ => ⟨k.val, k.isLt⟩
  | ⟨1, _⟩ => ⟨(j 1).val, (j 1).isLt⟩

/-- The plain product of a tall matrix with `H`: entry (r, c) is row r of `X` against column c of `H`. -/
def rowsTimes (X : SM.Idx → EReal) (H : SH.Idx → EReal) : SM.Idx → EReal :=
  fun j => ∑ k : Fin 128, X (rowAt j k) * H (colAt j k)

/-- Where position `i` of the [4, 4096, 4096] array sits in the tall matrix: its chunk's row, and its place in the chunk. -/
abbrev tallAt (i : SX.Idx) : SM.Idx := fun a => match a with
  | ⟨0, _⟩ => ⟨((i 0).val * 4096 + (i 1).val) * 32 + (i 2).val / 128, by have h0 : (i 0).val < 4 := (i 0).isLt; have h1 : (i 1).val < 4096 := (i 1).isLt; have h2 : (i 2).val < 4096 := (i 2).isLt; show ((i 0).val * 4096 + (i 1).val) * 32 + (i 2).val / 128 < 524288; omega⟩
  | ⟨1, _⟩ => ⟨(i 2).val % 128, by show (i 2).val % 128 < 128; omega⟩

/-- Flatten to the tall matrix, multiply by `H`, fold back: the block transform. The two reshapes keep flat positions,
    so the row of the tall matrix that position `i` falls in is the chunk of `i`, entry for entry. -/
theorem reshape_rowsTimes_reshape (x : SX.Idx → EReal) (H : SH.Idx → EReal) (h1 : SX.ShapeCasts SM) (h2 : SM.ShapeCasts SX) :
    shapeCast SX (rowsTimes (shapeCast SM x h1) H) h2 = blockTransform x H := by
  funext i
  have h0 : (i 0).val < 4 := (i 0).isLt
  have h1' : (i 1).val < 4096 := (i 1).isLt
  have h2' : (i 2).val < 4096 := (i 2).isLt
  rw [shapeCast_apply (rowsTimes (shapeCast SM x h1) H) h2 i (tallAt i) (by
    rewrite [Shape.rowMajor_val_two, Shape.rowMajor_val_three]
    show (((i 0).val * 4096 + (i 1).val) * 32 + (i 2).val / 128) * 128 + (i 2).val % 128 = ((i 0).val * 4096 + (i 1).val) * 4096 + (i 2).val
    omega)]
  unfold rowsTimes blockTransform
  refine Finset.sum_congr rfl fun k _ => ?_
  have hk : k.val < 128 := k.isLt
  rw [shapeCast_apply x h1 (rowAt (tallAt i) k) (chunkAt i k) (by
    rewrite [Shape.rowMajor_val_three, Shape.rowMajor_val_two]
    show ((i 0).val * 4096 + (i 1).val) * 4096 + ((i 2).val / 128 * 128 + k.val) = (((i 0).val * 4096 + (i 1).val) * 32 + (i 2).val / 128) * 128 + k.val
    omega)]

end Cert.BlockTransform

end
-- ==== Proof.RefIsSpec.lean ====
/-
  THE REFERENCE computes the block transform. Its three stages are: split the last axis of `x` into [32, 128]; contract
  the last of the four axes with the rows of `H` (entry (a, b, n, c) is the sum over k of x4[a, b, n, k] · H[k, c]); fold the
  two last axes back into one. Both reshapes keep flat positions, so position (a, b, d) of the result is entry
  (a, b, d / 128, d % 128) of the contraction, whose k-th product reads x at (a, b, (d / 128) · 128 + k): the chunk of d.
  That is `blockTransform`, term for term.
-/
import proofs.«129766_j88957362634992_1_alg».proof.Proof.Gen.ReferenceIdeal.Read
import proofs.«129766_j88957362634992_1_alg».proof.Proof.Spec

noncomputable section

open scoped BigOperators
open Idealize.ShloMosaic

namespace Cert.BlockTransform.Reference

open Cert.ReferenceIdeal Cert.ReferenceIdeal.Gen Cert.ReferenceIdeal.Read

/-- The reference's last stage, read index by index through the two reshapes and the contraction, is the block transform
    of its two arguments. -/
theorem stages_eq (x : (⟨S4x4096x4096, .f32⟩ : BufTy).Contents (Elt Ideal)) (H : (⟨S128x128, .f32⟩ : BufTy).Contents (Elt Ideal)) :
    val_main_v2 (F := Ideal) x H = blockTransform x H := by
  funext i
  have h0 : (i 0).val < 4 := (i 0).isLt
  have h1 : (i 1).val < 4096 := (i 1).isLt
  have h2 : (i 2).val < 4096 := (i 2).isLt
  rw [val_main_v2_apply, val_main_v1_apply]
  unfold blockTransform
  refine Finset.sum_congr rfl fun k _ => ?_
  have hk : k.val < 128 := k.isLt
  rw [val_main_v0_apply]
  -- the entry of `x` the k-th product reads: the k-th entry of the chunk of `i`
  have ex : idx_main_v0 (lidx_main_v1 (idx_main_v2 i) k) = chunkAt i k := by
    funext a; apply Fin.ext
    match a with
    | ⟨0, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) / 16777216 = (i 0).val
      omega
    | ⟨1, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) / 4096 % 4096 = (i 1).val
      omega
    | ⟨2, _⟩ =>
      show ((((((i 0).val * 4096 + (i 1).val) * 4096 + (i 2).val) / 16777216 * 4096 + (((i 0).val * 4096 + (i 1).val) * 4096 + (i 2).val) / 4096 % 4096) * 32 + (((i 0).val * 4096 + (i 1).val) * 4096 + (i 2).val) / 128 % 32) * 128 + k.val) % 4096 = (i 2).val / 128 * 128 + k.val
      omega
  -- the entry of `H`: row k, the column the place of `i` in its chunk
  have eh : ridx_main_v1 (idx_main_v2 i) k = coeffAt i k := by
    funext a; apply Fin.ext
    match a with
    | ⟨0, _⟩ => rfl
    | ⟨1, _⟩ =>
      show (((i 0).val * 4096 + (i 1).val) * 4096 + (i 2).val) % 128 = (i 2).val % 128
      omega
  rw [ex, eh]

end Cert.BlockTransform.Reference

end
-- ==== Proof.Payload.lean ====
/-
  WHAT THE KERNEL BODY COMPUTES at one grid point, entry by entry. The body loads a block of 8192 rows of the tall matrix
  and the whole 128 × 128 matrix, multiplies them into a zero accumulator, and stores the product. Over the extended reals
  the product's entry (r, c) is the plain sum over k of block[r, k] · H[k, c]: the accumulator contributes the real number
  zero, and the contraction index, an index of a one-axis shape, is its one coordinate k < 128.
-/
import proofs.«129766_j88957362634992_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic

namespace Cert.BlockTransform.Body

open Cert.KernelIdeal Cert.KernelIdeal.Gen

/-- Row `j 0` of the block, column `k`. -/
abbrev blkRow (j : S8192x128.Idx) (k : Fin 128) : S8192x128.Idx := fun a => match a with
  | ⟨0, _⟩ => ⟨(j 0).val, (j 0).isLt⟩
  | ⟨1, _⟩ => ⟨k.val, k.isLt⟩

/-- Row `k` of the matrix, column `j 1`. -/
abbrev matCol (j : S8192x128.Idx) (k : Fin 128) : S128x128.Idx := fun a => match a with
  | ⟨0, _⟩ => ⟨k.val, k.isLt⟩
  | ⟨1, _⟩ => ⟨(j 1).val, (j 1).isLt⟩

/-- The left operand's index keeps the result's row … -/
theorem lhs_row (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
/-- … and runs over the contracted position on its second axis. -/
theorem lhs_contr (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q
/-- The right operand's index runs over the contracted position on its first axis … -/
theorem rhs_contr (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q
/-- … and keeps the result's column. -/
theorem rhs_col (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The stored value at entry `j` = (r, c) of the block: the sum over k of block[r, k] · H[k, c]. -/
theorem payload_apply (x0 : Vec Ideal S8192x128 .f32) (x1 : Vec Ideal S128x128 .f32) (j : S8192x128.Idx) :
    k0_pay1 (F := Ideal) x0 x1 j = ∑ k : Fin 128, x0 (blkRow j k) * x1 (matCol j k) := by
  unfold k0_pay1
  simp only [matmul]
  rw [shapeCast_self, Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx j ((ValueIdx.contrEquiv1 dot_S8192x128_S128x128_S8192x128_1_0_0_1_n_n 128 rfl rfl).symm k) = blkRow j k := funext fun a => Fin.ext (by
    match a with
    | ⟨0, _⟩ => exact lhs_row _ _
    | ⟨1, _⟩ => exact (lhs_contr _ _).trans hk)
  have er : dot_S8192x128_S128x128_S8192x128_1_0_0_1_n_n.rhsIdx j ((ValueIdx.contrEquiv1 dot_S8192x128_S128x128_S8192x128_1_0_0_1_n_n 128 rfl rfl).symm k) = matCol j k := funext fun a => Fin.ext (by
    match a with
    | ⟨0, _⟩ => exact (rhs_contr _ _).trans hk
    | ⟨1, _⟩ => exact rhs_col _ _)
  rw [el, er]

end Cert.BlockTransform.Body

end
-- ==== Proof.KernelValue.lean ====
/-
  THE KERNEL PROGRAM's result, read off its run. The program flattens `x` to the tall [524288, 128] matrix, runs the
  kernel over 64 grid points, and folds the kernel's output back to [4, 4096, 4096]. Point t loads rows
  8192·t … 8192·t + 8191 of the tall matrix and the whole of `H`, and writes back the product of the two as the same rows of
  the output. A row of the product depends on that row of the tall matrix alone, so every block written back is a block of
  ONE array, the plain product `rowsTimes` of the tall matrix with `H`; the 64 blocks tile the output (row r lies in block
  r / 8192), so the output IS that product, and the result is its fold-back: the block transform.
-/
import proofs.«129766_j88957362634992_1_alg».proof.Proof.Gen.KernelIdeal.Frame
import proofs.«129766_j88957362634992_1_alg».proof.Proof.Payload
import proofs.«129766_j88957362634992_1_alg».proof.Proof.Spec
import Idealize.ShloMosaic.Lib.Pipeline.Value
import Idealize.ShloMosaic.Lib.StableHlo.Run

set_option maxRecDepth 16384

noncomputable section

open scoped BigOperators

namespace Cert.BlockTransform.KernelRun

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays the region finds -/

/-- The tall matrix and the matrix `H` as the region finds them, at their literal types. -/
abbrev tall (c : Dev nD) : Vec Ideal S524288x128 .f32 := V m c main_v0
abbrev mat (c : Dev nD) : Vec Ideal S128x128 .f32 := V m c main_arg1

/-- The tall matrix the region reads: `x` as launched, flattened. -/
theorem tall_eq (c : Dev nD) :
    tall m c = shapeCast S524288x128 (m ((c : Thread nD τ).loc main_arg0)) shapeCasts_S4x4096x4096_S524288x128 := by
  show StableHlo.after hostOps0 (fun b => m (c, b)) (Proc.devRef .tc main_v0) = _
  after_results
  rfl

/-- The matrix the region reads: `H` as launched (nothing before the region writes it). -/
theorem mat_eq (c : Dev nD) : mat m c = m ((c : Thread nD τ).loc main_arg1) := V_main_arg1 m c

/-! ## One point's block -/

theorem offset_zero : (![0, 0] : Fin 2 → Nat) = fun _ => 0 := funext fun a => by fin_cases a <;> rfl

/-- The printed index maps over the 64 points: the tall matrix's window and the output's sit at the same block row t, in
    the one block column; the matrix's window never moves. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every block row is some point's. -/
theorem index_onto : ∀ q : Fin 64, ∃ t : Fin cfg0.N, win0_2.index t = ![q.val, 0] :=
  (by decide +kernel : ∀ q : Fin 64, ∃ t : Fin grid0.N, win0_2.index t = ![q.val, 0])

/-- WHAT POINT `t` WRITES BACK is block `t` of the product of the tall matrix with `H`, both as the region finds them. -/
theorem flushed_eq (c : Dev nD) (t : Fin cfg0.N) :
    (dats m 0 c).flushed 2 t
      = ((cfg0.win 2).blk t).view.read (Elt Ideal) (rowsTimes (tall m c) (mat m c)) := by
  show (cfg0.win 2).cut (grid0.coords t) ((dats m 0 c).after 2 t) = _
  rw [after0_2]
  unfold out0_2
  rw [View.canon_unit_zero offset_zero]
  simp only [View.ld_unit_zero (S := S8192x128) offset_zero, View.ld_unit_zero (S := S128x128) offset_zero]
  obtain ⟨e0, e1, e2, e3, e4, e5⟩ := index_facts t
  funext j
  show k0_pay1 (F := Ideal) (iblk m c 0 t) (iblk m c 1 t) j = rowsTimes (tall m c) (mat m c) (((cfg0.win 2).blk t).view.emb j)
  refine (Body.payload_apply (iblk m c 0 t) (iblk m c 1 t) j).trans ?_
  unfold rowsTimes
  refine Finset.sum_congr rfl fun k _ => ?_
  show tall m c (((cfg0.win 0).blk t).view.emb (Body.blkRow j k)) * mat m c (((cfg0.win 1).blk t).view.emb (Body.matCol j k))
    = tall m c (rowAt (((cfg0.win 2).blk t).view.emb j) k) * mat m c (colAt (((cfg0.win 2).blk t).view.emb j) k)
  have h0 : ((cfg0.win 0).blk t).view.emb (Body.blkRow j k) = rowAt (((cfg0.win 2).blk t).view.emb j) k := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * k.val = k.val; omega
  have h1 : ((cfg0.win 1).blk t).view.emb (Body.matCol j k) = colAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-! ## The blocks tile the output -/

/-- An index of the output is in point `t`'s block iff each coordinate is in the block's range on its axis. -/
theorem mem_blk (t : Fin cfg0.N) (i : S524288x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v1).slice (win0_2.rect t)).set ↔ _
  rw [View.set_slice_whole, Rect.mem_set_unit]
  exact Iff.rfl

/-- Row r of the output lies in the block of point r / 8192, which writes it back. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- THE OUTPUT after the region: the product of the tall matrix with `H`. -/
theorem product_eq (c : Dev nD) :
    (dats m 0 c).arrAt 2 cfg0.N = rowsTimes (tall m c) (mat m c) :=
  (dats m 0 c).arrAt_eq_of_cover 2 _ (fun t _ => flushed_eq m c t) cover

/-! ## The fold-back after the region -/

/-- The program's result: the region's output, folded back to [4, 4096, 4096]. -/
theorem result_eq (c : Dev nD) :
    Pipeline.afterTail₀ cfgs (dats m) 0 (V0 m) [hostOps1] c main_v2
      = shapeCast S4x4096x4096 ((dats m 0 c).arrAt 2 cfg0.N) shapeCasts_S524288x128_S4x4096x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  rw [e]
  rfl

/-- The program's result is the block transform of `x` and `H` as launched: the fold-back of the product of the flattened
    `x` with `H` (`reshape_rowsTimes_reshape`). -/
theorem value_eq (c : Dev nD) :
    Pipeline.afterTail₀ cfgs (dats m) 0 (V0 m) [hostOps1] c main_v2
      = blockTransform (m ((c : Thread nD τ).loc main_arg0)) (m ((c : Thread nD τ).loc main_arg1)) := by
  rw [result_eq, product_eq, tall_eq, mat_eq]
  exact reshape_rowsTimes_reshape _ _ _ _

/-! ## The run, read -/

/-- Every weakly fair execution of the kernel program terminates with its result at the block transform of the two
    arguments and the arguments as launched. -/
theorem run : θ_run (defs (F := Ideal)) (onTc (τ := τ) (main (F := Ideal))) ⟨m, fun _ => 0, ρ⟩ fun r => ∀ c : Dev nD,
      r.2.mem ((c.tc : Thread nD τ).loc main_v2)
        = blockTransform (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (value_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.BlockTransform.KernelRun

end
-- ==== Proof.lean ====
/-
  The proof of `Cert.Claim`: a block transform, each chunk of 128 consecutive entries of the last axis of `x` times the
  128 × 128 matrix `H`, computed two ways.

  The kernel program flattens `x` to a tall [524288, 128] matrix, multiplies it by `H` 8192 rows at a time over 64 grid
  points, and folds the product back; the reference splits the last axis into [32, 128], contracts with `H`, and folds
  back. Over the extended reals both end at

      out[a, b, d] = ∑ k < 128,  x[a, b, (d / 128) · 128 + k] · H[k, d % 128]

  (`Cert.BlockTransform.blockTransform`): a row-major reshape keeps flat positions, a matrix product into a zero
  accumulator is the plain sum of products, and the two sums run over the same products in the same order — so no law
  that could fail at an infinity is used, and the precondition (finite inputs) is never opened.

  The three frames are the generated ones (the reference's is its generated run with the result dropped); the idealization
  rewrote nothing, so `preserves` has nothing to state; `algebraic` joins the kernel program's run, read off its frame run
  (Proof/KernelValue.lean over Proof/Payload.lean), with the reference's generated run read stage by stage
  (Proof/RefIsSpec.lean) at the one function of Proof/Spec.lean.
-/
import proofs.«129766_j88957362634992_1_alg».proof.Defs
import proofs.«129766_j88957362634992_1_alg».proof.Proof.Gen.Kernel
import proofs.«129766_j88957362634992_1_alg».proof.Proof.Gen.Kernel.Skeleton
import proofs.«129766_j88957362634992_1_alg».proof.Proof.Gen.Kernel.Launch
import proofs.«129766_j88957362634992_1_alg».proof.Proof.Gen.Kernel.Points
import proofs.«129766_j88957362634992_1_alg».proof.Proof.Gen.Kernel.Frame
import proofs.«129766_j88957362634992_1_alg».proof.Proof.Gen.KernelIdeal
import proofs.«129766_j88957362634992_1_alg».proof.Proof.Gen.KernelIdeal.Skeleton
import proofs.«129766_j88957362634992_1_alg».proof.Proof.Gen.KernelIdeal.Launch
import proofs.«129766_j88957362634992_1_alg».proof.Proof.Gen.KernelIdeal.Points
import proofs.«129766_j88957362634992_1_alg».proof.Proof.Gen.KernelIdeal.Frame
import proofs.«129766_j88957362634992_1_alg».proof.Proof.Gen.ReferenceIdeal
import proofs.«129766_j88957362634992_1_alg».proof.Proof.Gen.Pre_finite_inputs
import proofs.«129766_j88957362634992_1_alg».proof.Proof.Gen.ReferenceIdeal.Run
import proofs.«129766_j88957362634992_1_alg».proof.Proof.Gen.ReferenceIdeal.Read
import proofs.«129766_j88957362634992_1_alg».proof.Proof.Spec
import proofs.«129766_j88957362634992_1_alg».proof.Proof.RefIsSpec
import proofs.«129766_j88957362634992_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `H`, both programs end at the block transform of the two: the kernel program by
    its run read block by block, the reference by its three stages read at an index. -/
theorem algebraic : Cert.algebraic_KernelIdeal_ReferenceIdeal := by
  intro m ρ m' ρ' _ hagree
  refine ⟨fun c => Cert.BlockTransform.blockTransform
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BlockTransform.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.BlockTransform.Reference.stages_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
